-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S128x512 : Shape := ⟨2, ![128, 512]⟩
abbrev S64x128 : Shape := ⟨2, ![64, 128]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S16384x512 .f32) (main_arg1 : FVec F S128x512 .f32) (main_arg2 : FVec F S64x128 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  main_v13
-- ==== Kernel.lean ====
abbrev S16384x512 : Shape := ⟨2, ![16384, 512]⟩
abbrev S128x512 : Shape := ⟨2, ![128, 512]⟩
abbrev S64x128 : Shape := ⟨2, ![64, 128]⟩
abbrev S16384 : Shape := ⟨1, ![16384]⟩
abbrev S1024x512 : Shape := ⟨2, ![1024, 512]⟩
abbrev S1024 : Shape := ⟨1, ![1024]⟩
abbrev S1024x128 : Shape := ⟨2, ![1024, 128]⟩
abbrev S1024x64 : Shape := ⟨2, ![1024, 64]⟩
abbrev S64 : Shape := ⟨1, ![64]⟩
abbrev S1x64 : Shape := ⟨2, ![1, 64]⟩

abbrev nBuf : Space → Nat
  | .hbm => 4
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S128x512, .f32⟩
  | .hbm, ⟨2, _⟩ => ⟨S64x128, .f32⟩
  | .hbm, ⟨3, _⟩ => ⟨S16384, .f32⟩
  | .local _ .vmem, ⟨0, _⟩ => ⟨S1024x512, .f32⟩
  | .local _ .vmem, ⟨1, _⟩ => ⟨S1024x512, .f32⟩
  | .local _ .vmem, ⟨2, _⟩ => ⟨S128x512, .f32⟩
  | .local _ .vmem, ⟨3, _⟩ => ⟨S64x128, .f32⟩
  | .local _ .vmem, ⟨4, _⟩ => ⟨S1024, .f32⟩
  | .local _ .vmem, ⟨5, _⟩ => ⟨S1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1024x512_S1024x512_0_0 : ∀ a, (![0, 0] : Fin 2 → Nat) a + S1024x512.size a ≤ S1024x512.size a
  h_S1024x512 : 0 < S1024x512.numel
  inb_S128x512_S128x512_0_0 : ∀ a, (![0, 0] : Fin 2 → Nat) a + S128x512.size a ≤ S128x512.size a
  h_S128x512 : 0 < S128x512.numel
  inb_S64x128_S64x128_0_0 : ∀ a, (![0, 0] : Fin 2 → Nat) a + S64x128.size a ≤ S64x128.size a
  h_S64x128 : 0 < S64x128.numel
  bitsLt_bf16_f32 : FTy.bits .bf16 < FTy.bits .f32
  reduces_S1024x128_S1024 : S1024x128.Reduces [1] S1024
  reduces_S64x128_S64 : S64x128.Reduces [1] S64
  shapeCasts_S64_S1x64 : S64.ShapeCasts S1x64
  broadcasts_S1x64_S1024x64 : S1x64.Broadcasts S1024x64
  reduces_S1024x64_S1024 : S1024x64.Reduces [1] S1024
  inb_S1024_S1024_0 : ∀ a, (![0] : Fin 1 → Nat) a + S1024.size a ≤ S1024.size a
  h_S1024 : 0 < S1024.numel
  dot_S1024x512_S128x512_S1024x128_1_1_0_0_n_n_wf : DotDims.WF S1024x512 S128x512 S1024x128 [1] [1] [0] [0] [] []
  dot_S1024x128_S64x128_S1024x64_1_1_0_0_n_n_wf : DotDims.WF S1024x128 S64x128 S1024x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S16384.size a
  hwx0_3 : ∀ i : grid0.Coords, EltTy.bits .f32 = 32 ∨ (Rect.block (s := S16384) S1024.size (cc0_transform_3 i) (hinb0_3 i)).WholeWords (EltTy.packing .f32)

variable [Facts₀]

def dot_S1024x512_S128x512_S1024x128_1_1_0_0_n_n : DotDims S1024x512 S128x512 S1024x128 where
  lhsContracting := [1]
  rhsContracting := [1]
  lhsNonContracting := [0]
  rhsNonContracting := [0]
  lhsBatch := []
  rhsBatch := []
  wf := dot_S1024x512_S128x512_S1024x128_1_1_0_0_n_n_wf
def dot_S1024x128_S64x128_S1024x64_1_1_0_0_n_n : DotDims S1024x128 S64x128 S1024x64 where
  lhsContracting := [1]
  rhsContracting := [1]
  lhsNonContracting := [0]
  rhsNonContracting := [0]
  lhsBatch := []
  rhsBatch := []
  wf := dot_S1024x128_S64x128_S1024x64_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x512 : Shape := ⟨2, ![16384, 512]⟩
abbrev S128x512 : Shape := ⟨2, ![128, 512]⟩
abbrev S64x128 : Shape := ⟨2, ![64, 128]⟩
abbrev S512x128 : Shape := ⟨2, ![512, 128]⟩
abbrev S16384x128 : Shape := ⟨2, ![16384, 128]⟩
abbrev S_ : Shape := ⟨0, ![]⟩
abbrev S16384 : Shape := ⟨1, ![16384]⟩
abbrev S16384x1 : Shape := ⟨2, ![16384, 1]⟩
abbrev S64 : Shape := ⟨1, ![64]⟩
abbrev S1x64 : Shape := ⟨2, ![1, 64]⟩
abbrev S16384x64 : Shape := ⟨2, ![16384, 64]⟩
abbrev S128x64 : Shape := ⟨2, ![128, 64]⟩

abbrev nBuf : Space → Nat
  | .hbm => 28
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S128x512, .f32⟩
  | .hbm, ⟨2, _⟩ => ⟨S64x128, .f32⟩
  | .hbm, ⟨3, _⟩ => ⟨S512x128, .f32⟩
  | .hbm, ⟨4, _⟩ => ⟨S16384x128, .f32⟩
  | .hbm, ⟨5, _⟩ => ⟨S16384x128, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S64x128, .f32⟩
  | .hbm, ⟨10, _⟩ => ⟨S_, .f32⟩
  | .hbm, ⟨11, _⟩ => ⟨S64, .f32⟩
  | .hbm, ⟨12, _⟩ => ⟨S1x64, .f32⟩
  | .hbm, ⟨13, _⟩ => ⟨S16384x64, .f32⟩
  | .hbm, ⟨14, _⟩ => ⟨S16384x64, .f32⟩
  | .hbm, ⟨15, _⟩ => ⟨S16384x64, .f32⟩
  | .hbm, ⟨16, _⟩ => ⟨S128x64, .f32⟩
  | .hbm, ⟨17, _⟩ => ⟨S16384x64, .f32⟩
  | .hbm, ⟨18, _⟩ => ⟨S_, .f32⟩
  | .hbm, ⟨19, _⟩ => ⟨S16384x64, .f32⟩
  | .hbm, ⟨20, _⟩ => ⟨S16384x64, .f32⟩
  | .hbm, ⟨21, _⟩ => ⟨S16384x64, .f32⟩
  | .hbm, ⟨22, _⟩ => ⟨S_, .f32⟩
  | .hbm, ⟨23, _⟩ => ⟨S16384x64, .f32⟩
  | .hbm, ⟨24, _⟩ => ⟨S16384x64, .f32⟩
  | .hbm, ⟨25, _⟩ => ⟨S16384x64, .f32⟩
  | .hbm, ⟨26, _⟩ => ⟨S_, .f32⟩
  | .hbm, ⟨27, _⟩ => ⟨S16384, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  transposes_S128x512_S512x128_1_0 : S128x512.Transposes [1, 0] S512x128
  reducesTo_S16384x128_S16384_d1 : S16384x128.ReducesTo [1] S16384
  h_S_ : 0 < S_.numel
  bcast_S16384_S16384x1_0 : S16384.BroadcastsInDim S16384x1 (![0] : Fin 1 → Fin S16384x1.rank)
  reducesTo_S64x128_S64_d1 : S64x128.ReducesTo [1] S64
  bcast_S64_S1x64_1 : S64.BroadcastsInDim S1x64 (![1] : Fin 1 → Fin S1x64.rank)
  bcast_S16384x1_S16384x64_0_1 : S16384x1.BroadcastsInDim S16384x64 (![0, 1] : Fin 2 → Fin S16384x64.rank)
  bcast_S1x64_S16384x64_0_1 : S1x64.BroadcastsInDim S16384x64 (![0, 1] : Fin 2 → Fin S16384x64.rank)
  transposes_S64x128_S128x64_1_0 : S64x128.Transposes [1, 0] S128x64
  bcast_S_S16384x64 : S_.BroadcastsInDim S16384x64 (![] : Fin 0 → Fin S16384x64.rank)
  reducesTo_S16384x64_S16384_d1 : S16384x64.ReducesTo [1] S16384
  dot_S16384x512_S512x128_S16384x128_1_0_0_1_n_n_wf : DotDims.WF S16384x512 S512x128 S16384x128 [1] [0] [0] [1] [] []
  dot_S16384x128_S128x64_S16384x64_1_0_0_1_n_n_wf : DotDims.WF S16384x128 S128x64 S16384x64 [1] [0] [0] [1] [] []

variable [Facts₀]

def dot_S16384x512_S512x128_S16384x128_1_0_0_1_n_n : DotDims S16384x512 S512x128 S16384x128 where
  lhsContracting := [1]
  rhsContracting := [0]
  lhsNonContracting := [0]
  rhsNonContracting := [1]
  lhsBatch := []
  rhsBatch := []
  wf := dot_S16384x512_S512x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf

class Facts : Prop extends Facts₀ where

variable [Facts]
-- ==== Proof.Spec.lean ====
/-
  Nearest-centre distance of one projected row, on the extended reals.

  A row `xr` of 512 numbers is projected onto 128 directions `p e` (`enc`), and compared with 64 centres `c j` in the
  projected space through the expansion  |u - c_j|² = |u|² + |c_j|² - 2 ⟨u, c_j⟩.  One program takes the minimum over the
  centres BEFORE adding |u|², clamping at zero and taking the square root; the other does all of that per centre and
  takes the minimum LAST.  The two agree because  a ↦ √(max(|u|² + a, 0))  is monotone on the extended reals and a
  monotone map commutes with the minimum of a non-empty finite family; the only other difference is the association
  (|u|² + |c_j|²) - y  against  |u|² + (|c_j|² - y), which is associativity of addition.  No finiteness is needed.
-/
import Idealize.ShloMosaic.PureOps.Ideal
import Idealize.ShloMosaic.PureOps.Ideal.Laws
import Idealize.ShloMosaic.Lib.ValueIdx

noncomputable section

namespace Cert.Dist

open Idealize.ShloMosaic

/-- The square root of the extended reals (bottom below zero, the real root from zero on, top at top) is monotone. -/
theorem sqrt_mono : Monotone Ideal.sqrt := by
  intro x y hxy
  induction x using EReal.rec with
  | bot => rw [Ideal.sqrt_bot]; exact bot_le
  | top => rw [top_le_iff.mp hxy]
  | coe r =>
    induction y using EReal.rec with
    | bot => exact absurd hxy (by simp)
    | top => rw [Ideal.sqrt_top]; exact le_top
    | coe s =>
      have hrs : r ≤ s := EReal.coe_le_coe_iff.mp hxy
      rw [Ideal.sqrt_coe, Ideal.sqrt_coe]
      split_ifs with h1 h2 h2
      · exact le_rfl
      · exact bot_le
      · exact absurd (lt_of_le_of_lt hrs h2) h1
      · exact EReal.coe_le_coe_iff.mpr (Real.sqrt_le_sqrt hrs)

/-- A monotone map of the extended reals commutes with the minimum, taken from top, of a non-empty finite family. -/
theorem map_fold_min {ι : Type} (φ : EReal → EReal) (hφ : Monotone φ) (f : ι → EReal) (s : Finset ι) (hs : s.Nonempty) :
    φ (s.fold min ⊤ f) = s.fold min ⊤ (fun j => φ (f j)) := by
  induction hs using Finset.Nonempty.cons_induction with
  | singleton a => rw [Finset.fold_singleton, Finset.fold_singleton, min_top_right, min_top_right]
  | cons a s ha hs ih => rw [Finset.fold_cons, Finset.fold_cons, hφ.map_min, ih]

/-- The pattern of +∞ denotes the top of the extended reals. -/
theorem top_lit : Ideal.ofBits .f32 0x7F800000#32 = ⊤ := by simp [Ideal.ofBits, Ideal.ieee]

variable (xr : Fin 512 → EReal) (p : Fin 128 → Fin 512 → EReal) (c : Fin 64 → Fin 128 → EReal)

/-- Coordinate `e` of the row's projection: its inner product with direction `e`. -/
def enc (e : Fin 128) : EReal := ∑ k : Fin 512, xr k * p e k

/-- The squared length of the projected row. -/
def sqLen : EReal := ∑ e : Fin 128, enc xr p e * enc xr p e

/-- The inner product of the projected row with centre `j`. -/
def cross (j : Fin 64) : EReal := ∑ e : Fin 128, enc xr p e * c j e

/-- The squared length of centre `j`. -/
def cenSq (j : Fin 64) : EReal := ∑ e : Fin 128, c j e * c j e

/-- Minimum over the centres first: √(max(|u|² + min_j (|c_j|² - two·⟨u, c_j⟩), zero)). -/
def minFirst (two zero : EReal) : EReal :=
  Ideal.sqrt (max (sqLen xr p + (Finset.univ : Finset (Fin 64)).fold min ⊤ (fun j => cenSq c j - two * cross xr p c j)) zero)

/-- Minimum over the centres last: min_j √(max((|u|² + |c_j|²) - two·⟨u, c_j⟩, zero)). -/
def minLast (two zero : EReal) : EReal :=
  (Finset.univ : Finset (Fin 64)).fold min ⊤ (fun j => Ideal.sqrt (max ((sqLen xr p + cenSq c j) - two * cross xr p c j) zero))

/-- The two orders give one value: the map a ↦ √(max(|u|² + a, zero)) is monotone, and addition associates. -/
theorem minFirst_eq_minLast (two zero : EReal) : minFirst xr p c two zero = minLast xr p c two zero := by
  have hmono : Monotone (fun a : EReal => Ideal.sqrt (max (sqLen xr p + a) zero)) :=
    fun a b h => sqrt_mono (max_le_max (add_le_add le_rfl h) le_rfl)
  unfold minFirst minLast
  refine (map_fold_min _ hmono _ _ Finset.univ_nonempty).trans ?_
  refine congrArg (fun g => (Finset.univ : Finset (Fin 64)).fold min ⊤ g) (funext fun j => ?_)
  rw [sub_eq_add_neg, sub_eq_add_neg, add_assoc]

/-! ## Whole arrays -/

/-- The result as ONE function of the three argument arrays: entry `i` is the nearest-centre distance of row `i` of the
    data (minimum over the centres first), the scale `2` and the clamp `0` kept as the words the programs spell. -/
def G (x : (⟨2, ![16384, 512]⟩ : Shape).Idx → EReal) (pc : (⟨2, ![128, 512]⟩ : Shape).Idx → EReal)
    (cen : (⟨2, ![64, 128]⟩ : Shape).Idx → EReal) : (⟨1, ![16384]⟩ : Shape).Idx → EReal :=
  fun i => minFirst (fun k => x (ValueIdx.ix2 (i 0) k)) (fun e k => pc (ValueIdx.ix2 e k)) (fun j e => cen (ValueIdx.ix2 j e))
    (Ideal.ofBits .f32 0x40000000#32) (Ideal.ofBits .f32 0x00000000#32)

end Cert.Dist

end
-- ==== Proof.KerPayload.lean ====
/-
  The kernel body's stored value, read at a row: for loaded blocks `x0` (1024 data rows), `x1` (the 128 directions) and
  `x2` (the 64 centres), entry `r` of the stored vector is the nearest-centre distance of row `r` of `x0`, the minimum
  over the centres taken FIRST (`Cert.Dist.minFirst`).  The two matrix products are plain sums over the contracted
  coordinate (their accumulator is the zero splat, and narrowing to bf16 changes nothing on the extended reals), the
  two lane sums are sums over the 128 projected coordinates, the lane minimum is a minimum from +∞ over the 64 centres,
  and the centres' squared lengths reach every row through a cast to one row and a broadcast down the rows.
-/
import proofs.«111382_g25297357373548_cont_8to1_1309_3_alg».proof.Proof.Gen.KernelIdeal.Skeleton
import proofs.«111382_g25297357373548_cont_8to1_1309_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.KerDist

open Idealize.ShloMosaic Idealize.ShloMosaic.ValueIdx Cert.KernelIdeal Cert.KernelIdeal.Gen Cert.Dist

/-! ## The first product: rows of the block against the directions, both contracted over their second axis -/

theorem lhs_proj_0 (i : S1024x128.Idx) (q : dot_S1024x512_S128x512_S1024x128_1_1_0_0_n_n.contr.Idx) :
    (dot_S1024x512_S128x512_S1024x128_1_1_0_0_n_n.lhsIdx i q 0).val = (i 0).val := by
  unfold DotDims.lhsIdx
  rw [dif_neg (show ¬(0 : Fin S1024x512.rank) ∈ dot_S1024x512_S128x512_S1024x128_1_1_0_0_n_n.lhsBatch by decide), dif_pos (show (0 : Fin S1024x512.rank) ∈ dot_S1024x512_S128x512_S1024x128_1_1_0_0_n_n.lhsNonContracting by decide)]
  rfl
theorem lhs_proj_1 (i : S1024x128.Idx) (q : dot_S1024x512_S128x512_S1024x128_1_1_0_0_n_n.contr.Idx) :
    (dot_S1024x512_S128x512_S1024x128_1_1_0_0_n_n.lhsIdx i q 1).val = (q ⟨0, by decide⟩).val :=
  dot_S1024x512_S128x512_S1024x128_1_1_0_0_n_n.lhsIdx_val_of_single rfl i q
theorem rhs_proj_0 (i : S1024x128.Idx) (q : dot_S1024x512_S128x512_S1024x128_1_1_0_0_n_n.contr.Idx) :
    (dot_S1024x512_S128x512_S1024x128_1_1_0_0_n_n.rhsIdx i q 0).val = (i 1).val := by
  unfold DotDims.rhsIdx
  rw [dif_neg (show ¬(0 : Fin S128x512.rank) ∈ dot_S1024x512_S128x512_S1024x128_1_1_0_0_n_n.rhsBatch by decide), dif_pos (show (0 : Fin S128x512.rank) ∈ dot_S1024x512_S128x512_S1024x128_1_1_0_0_n_n.rhsNonContracting by decide)]
  rfl
theorem rhs_proj_1 (i : S1024x128.Idx) (q : dot_S1024x512_S128x512_S1024x128_1_1_0_0_n_n.contr.Idx) :
    (dot_S1024x512_S128x512_S1024x128_1_1_0_0_n_n.rhsIdx i q 1).val = (q ⟨0, by decide⟩).val :=
  dot_S1024x512_S128x512_S1024x128_1_1_0_0_n_n.rhsIdx_val_of_single rfl i q

/-- The projection of row `r` onto direction `e`: the sum over the 512 coordinates of row times direction. -/
theorem proj_apply (x0 : FVec Ideal S1024x512 .f32) (x1 : FVec Ideal S128x512 .f32) (r : Fin 1024) (e : Fin 128) :
    matmul dot_S1024x512_S128x512_S1024x128_1_1_0_0_n_n none (truncf .bf16 x0 bitsLt_bf16_f32) (truncf .bf16 x1 bitsLt_bf16_f32)
        (constant (F := Ideal) S1024x128 .f32 0x00000000#32) (ix2 r e)
      = enc (fun k => x0 (ix2 r k)) (fun e k => x1 (ix2 e k)) e := by
  show FloatOps.matmul dot_S1024x512_S128x512_S1024x128_1_1_0_0_n_n none _ _ (constant (F := Ideal) S1024x128 .f32 0x00000000#32) (ix2 r e) = _
  rw [Ideal.matmul_constant_zero_apply, ← Equiv.sum_comp (contrEquiv1 dot_S1024x512_S128x512_S1024x128_1_1_0_0_n_n 512 rfl rfl).symm]
  unfold enc
  refine Finset.sum_congr rfl fun k _ => ?_
  have hk := contrEquiv1_symm_val dot_S1024x512_S128x512_S1024x128_1_1_0_0_n_n 512 rfl rfl k
  have el : dot_S1024x512_S128x512_S1024x128_1_1_0_0_n_n.lhsIdx (ix2 r e) ((contrEquiv1 dot_S1024x512_S128x512_S1024x128_1_1_0_0_n_n 512 rfl rfl).symm k) = ix2 r k := funext fun a => Fin.ext (by
    match a with
    | ⟨0, _⟩ => exact lhs_proj_0 _ _
    | ⟨1, _⟩ => exact (lhs_proj_1 _ _).trans hk)
  have er : dot_S1024x512_S128x512_S1024x128_1_1_0_0_n_n.rhsIdx (ix2 r e) ((contrEquiv1 dot_S1024x512_S128x512_S1024x128_1_1_0_0_n_n 512 rfl rfl).symm k) = ix2 e k := funext fun a => Fin.ext (by
    match a with
    | ⟨0, _⟩ => exact rhs_proj_0 _ _
    | ⟨1, _⟩ => exact (rhs_proj_1 _ _).trans hk)
  rw [el, er]
  rfl

/-! ## The second product: projected rows against the centres, both contracted over their second axis -/

theorem lhs_cross_0 (i : S1024x64.Idx) (q : dot_S1024x128_S64x128_S1024x64_1_1_0_0_n_n.contr.Idx) :
    (dot_S1024x128_S64x128_S1024x64_1_1_0_0_n_n.lhsIdx i q 0).val = (i 0).val := by
  unfold DotDims.lhsIdx
  rw [dif_neg (show ¬(0 : Fin S1024x128.rank) ∈ dot_S1024x128_S64x128_S1024x64_1_1_0_0_n_n.lhsBatch by decide), dif_pos (show (0 : Fin S1024x128.rank) ∈ dot_S1024x128_S64x128_S1024x64_1_1_0_0_n_n.lhsNonContracting by decide)]
  rfl
theorem lhs_cross_1 (i : S1024x64.Idx) (q : dot_S1024x128_S64x128_S1024x64_1_1_0_0_n_n.contr.Idx) :
    (dot_S1024x128_S64x128_S1024x64_1_1_0_0_n_n.lhsIdx i q 1).val = (q ⟨0, by decide⟩).val :=
  dot_S1024x128_S64x128_S1024x64_1_1_0_0_n_n.lhsIdx_val_of_single rfl i q
theorem rhs_cross_0 (i : S1024x64.Idx) (q : dot_S1024x128_S64x128_S1024x64_1_1_0_0_n_n.contr.Idx) :
    (dot_S1024x128_S64x128_S1024x64_1_1_0_0_n_n.rhsIdx i q 0).val = (i 1).val := by
  unfold DotDims.rhsIdx
  rw [dif_neg (show ¬(0 : Fin S64x128.rank) ∈ dot_S1024x128_S64x128_S1024x64_1_1_0_0_n_n.rhsBatch by decide), dif_pos (show (0 : Fin S64x128.rank) ∈ dot_S1024x128_S64x128_S1024x64_1_1_0_0_n_n.rhsNonContracting by decide)]
  rfl
theorem rhs_cross_1 (i : S1024x64.Idx) (q : dot_S1024x128_S64x128_S1024x64_1_1_0_0_n_n.contr.Idx) :
    (dot_S1024x128_S64x128_S1024x64_1_1_0_0_n_n.rhsIdx i q 1).val = (q ⟨0, by decide⟩).val :=
  dot_S1024x128_S64x128_S1024x64_1_1_0_0_n_n.rhsIdx_val_of_single rfl i q

/-- The inner product of a projected row `y r` with centre `j`: the sum over the 128 projected coordinates. -/
theorem cross_apply (y : FVec Ideal S1024x128 .f32) (x2 : FVec Ideal S64x128 .f32) (r : Fin 1024) (j : Fin 64) :
    matmul dot_S1024x128_S64x128_S1024x64_1_1_0_0_n_n none (truncf .bf16 y bitsLt_bf16_f32) (truncf .bf16 x2 bitsLt_bf16_f32)
        (constant (F := Ideal) S1024x64 .f32 0x00000000#32) (ix2 r j)
      = ∑ e : Fin 128, y (ix2 r e) * x2 (ix2 j e) := by
  show FloatOps.matmul dot_S1024x128_S64x128_S1024x64_1_1_0_0_n_n none _ _ (constant (F := Ideal) S1024x64 .f32 0x00000000#32) (ix2 r j) = _
  rw [Ideal.matmul_constant_zero_apply, ← Equiv.sum_comp (contrEquiv1 dot_S1024x128_S64x128_S1024x64_1_1_0_0_n_n 128 rfl rfl).symm]
  refine Finset.sum_congr rfl fun k _ => ?_
  have hk := contrEquiv1_symm_val dot_S1024x128_S64x128_S1024x64_1_1_0_0_n_n 128 rfl rfl k
  have el : dot_S1024x128_S64x128_S1024x64_1_1_0_0_n_n.lhsIdx (ix2 r j) ((contrEquiv1 dot_S1024x128_S64x128_S1024x64_1_1_0_0_n_n 128 rfl rfl).symm k) = ix2 r k := funext fun a => Fin.ext (by
    match a with
    | ⟨0, _⟩ => exact lhs_cross_0 _ _
    | ⟨1, _⟩ => exact (lhs_cross_1 _ _).trans hk)
  have er : dot_S1024x128_S64x128_S1024x64_1_1_0_0_n_n.rhsIdx (ix2 r j) ((contrEquiv1 dot_S1024x128_S64x128_S1024x64_1_1_0_0_n_n 128 rfl rfl).symm k) = ix2 j k := funext fun a => Fin.ext (by
    match a with
    | ⟨0, _⟩ => exact rhs_cross_0 _ _
    | ⟨1, _⟩ => exact (rhs_cross_1 _ _).trans hk)
  rw [el, er]
  rfl

/-! ## The lane reductions -/

/-- The lane sum of a [1024, 128] vector at row `r`: the sum over its 128 lanes. -/
theorem rowsum_proj (y : FVec Ideal S1024x128 .f32) (r : Fin 1024) (hφ : FKind.Formats .f32)
    (hacc : (0x00000000#32 : BitVec 32) = FKind.add.neutral .f32 hφ) :
    multiReduction .add [1] S1024 y 0x00000000#32 reduces_S1024x128_S1024 hφ hacc (ix1 r) = ∑ e : Fin 128, y (ix2 r e) := by
  refine (Ideal.multiReduction_add_single y 0x00000000#32 reduces_S1024x128_S1024 hφ hacc (ix1 r)).trans ?_
  refine Finset.sum_congr rfl fun e _ => congrArg y ?_
  exact funext fun a => Fin.ext (by match a with | ⟨0, _⟩ => rfl | ⟨1, _⟩ => rfl)

/-- The lane sum of a [64, 128] vector at row `j`: the sum over its 128 lanes. -/
theorem rowsum_cen (y : FVec Ideal S64x128 .f32) (j : Fin 64) (hφ : FKind.Formats .f32)
    (hacc : (0x00000000#32 : BitVec 32) = FKind.add.neutral .f32 hφ) :
    multiReduction .add [1] S64 y 0x00000000#32 reduces_S64x128_S64 hφ hacc (ix1 j) = ∑ e : Fin 128, y (ix2 j e) := by
  refine (Ideal.multiReduction_add_single y 0x00000000#32 reduces_S64x128_S64 hφ hacc (ix1 j)).trans ?_
  refine Finset.sum_congr rfl fun e _ => congrArg y ?_
  exact funext fun a => Fin.ext (by match a with | ⟨0, _⟩ => rfl | ⟨1, _⟩ => rfl)

/-- The lane minimum of a [1024, 64] vector at row `r`, from the +∞ word: the minimum from top over its 64 lanes. -/
theorem rowmin_apply (y : FVec Ideal S1024x64 .f32) (r : Fin 1024) (hφ : FKind.Formats .f32)
    (hacc : (0x7F800000#32 : BitVec 32) = FKind.minimumf.neutral .f32 hφ) :
    multiReduction .minimumf [1] S1024 y 0x7F800000#32 reduces_S1024x64_S1024 hφ hacc (ix1 r)
      = (Finset.univ : Finset (Fin 64)).fold min ⊤ (fun j => y (ix2 r j)) := by
  refine (multiReduction_minimumf_eq_fold y _ reduces_S1024x64_S1024 hφ hacc (ix1 r)).trans ?_
  refine (reduces_S1024x64_S1024.fold_filter_drop_single _ _ y (ix1 r)).trans ?_
  show Finset.fold min (Ideal.ofBits .f32 0x7F800000#32) _ _ = _
  rw [top_lit]
  refine congrArg (fun g => Finset.fold min ⊤ g Finset.univ) (funext fun (j : Fin 64) => ?_)
  exact congrArg y (funext fun a => Fin.ext (by match a with | ⟨0, _⟩ => rfl | ⟨1, _⟩ => rfl))

/-- A [64] vector cast to one row and broadcast down 1024 rows reads, at (r, j), the vector at `j`. -/
theorem bcast_apply (v : FVec Ideal S64 .f32) (r : Fin 1024) (j : Fin 64) :
    broadcastTo S1024x64 (shapeCast S1x64 v shapeCasts_S64_S1x64) broadcasts_S1x64_S1024x64 (ix2 r j) = v (ix1 j) :=
  (broadcastTo_1b_ab_apply _ broadcasts_S1x64_S1024x64 r j).trans (shapeCast_a_1a_apply v shapeCasts_S64_S1x64 0 j)

/-! ## The stored value at a row -/

/-- Entry `r` of what the body stores is the nearest-centre distance of row `r` of the data block, minimum first. -/
theorem pay_apply (x0 : Vec Ideal S1024x512 .f32) (x1 : Vec Ideal S128x512 .f32) (x2 : Vec Ideal S64x128 .f32) (r : Fin 1024) :
    k0_pay1 (F := Ideal) x0 x1 x2 (ix1 r)
      = minFirst (fun k => x0 (ix2 r k)) (fun e k => x1 (ix2 e k)) (fun j e => x2 (ix2 j e))
          (Ideal.ofBits .f32 0x40000000#32) (Ideal.ofBits .f32 0x00000000#32) := by
  unfold k0_pay1 minFirst
  refine congrArg Ideal.sqrt (congrArg₂ max (congrArg₂ (· + ·) ?_ ?_) rfl)
  · refine (rowsum_proj _ r _ _).trans ?_
    unfold sqLen
    refine Finset.sum_congr rfl fun e _ => ?_
    exact congrArg₂ (· * ·) (proj_apply x0 x1 r e) (proj_apply x0 x1 r e)
  · refine (rowmin_apply _ r _ _).trans ?_
    refine congrArg (fun g => Finset.fold min ⊤ g Finset.univ) (funext fun (j : Fin 64) => ?_)
    refine congrArg₂ (· - ·) ?_ (congrArg₂ (· * ·) rfl ?_)
    · refine (bcast_apply _ r j).trans ((rowsum_cen _ j _ _).trans ?_)
      rfl
    · refine (cross_apply _ x2 r j).trans ?_
      unfold cross
      exact Finset.sum_congr rfl fun e _ => congrArg (· * x2 (ix2 j e)) (proj_apply x0 x1 r e)

end Cert.KerDist

end
-- ==== Proof.KerValue.lean ====
/-
  From blocks to the whole array.  Grid point `t` of the sixteen fetches data rows 1024·t … 1024·t + 1023, all
  128 directions and all 64 centres, and writes back entries 1024·t … 1024·t + 1023 of the result; what it writes is
  the stored value of `KerPayload` at those rows, so it is block `t` of the one function `Cert.Dist.G` of the three
  argument arrays.  The sixteen blocks tile the 16384 entries (entry `i` lies in block `i / 1024`), hence the
  result array after the run is `G` of the arguments.
-/
import proofs.«111382_g25297357373548_cont_8to1_1309_3_alg».proof.Proof.Gen.KernelIdeal.Value
import proofs.«111382_g25297357373548_cont_8to1_1309_3_alg».proof.Proof.KerPayload

noncomputable section

namespace Cert.KerDist

open Idealize.ShloMosaic Idealize.ShloMosaic.TcCoe Idealize.SL.Sem Idealize.ShloMosaic.ValueIdx
open Cert.KernelIdeal Cert.KernelIdeal.Gen Cert.Dist
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the data window and the result window move with the point along their
    first axis; the directions and the centres stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = t.val :=
  (by decide +kernel : ∀ t : Fin grid0.N, _)

/-- Every one of the sixteen result blocks is some point's. -/
theorem idx_onto : ∀ q : Fin 16, ∃ t : Fin cfg0.N, win0_3.index t (0 : Fin 1) = q.val :=
  (by decide +kernel : ∀ q : Fin 16, ∃ t : Fin grid0.N, win0_3.index t (0 : Fin 1) = q.val)

/-- The stored value at any index of the block, by its one coordinate. -/
theorem pay_row (b0 : Vec Ideal S1024x512 .f32) (b1 : Vec Ideal S128x512 .f32) (b2 : Vec Ideal S64x128 .f32) (y : S1024.Idx) :
    k0_pay1 (F := Ideal) b0 b1 b2 y
      = minFirst (fun k => b0 (ix2 (y 0) k)) (fun e k => b1 (ix2 e k)) (fun j e => b2 (ix2 j e))
          (Ideal.ofBits .f32 0x40000000#32) (Ideal.ofBits .f32 0x00000000#32) := by
  obtain ⟨r, rfl⟩ : ∃ r : Fin 1024, y = ix1 r := ⟨y 0, eq_ix1 y⟩
  exact pay_apply b0 b1 b2 r

/-- The data window's block at point `t` is rows 1024·t … of the data. -/
theorem iblk0_apply (c : Dev nD) (t : Fin cfg0.N) (r : Fin 1024) (k : Fin 512) (i : Fin 16384) (hi : i.val = t.val * 1024 + r.val) :
    (iblk m c 0 t : Vec Ideal S1024x512 .f32) (ix2 r k) = (m ((c : Thread nD τ).loc main_arg0) : S16384x512.Idx → Elt Ideal .f32) (ix2 i k) := by
  obtain ⟨e0, e1, -⟩ := idx_facts t
  unfold iblk
  rw [View.read_apply]
  show V m c main_arg0 _ = m (c.tc.loc main_arg0) _
  unfold V
  congr 1
  funext a
  apply Fin.ext
  match a with
  | ⟨0, _⟩ => show win0_0.index t 0 * 1024 + 1 * r.val = i.val; rw [e0, hi]; omega
  | ⟨1, _⟩ => show win0_0.index t 1 * 512 + 1 * k.val = k.val; rw [e1]; omega

/-- The directions' window holds the whole array at every point. -/
theorem iblk1_apply (c : Dev nD) (t : Fin cfg0.N) (e : Fin 128) (k : Fin 512) :
    (iblk m c 1 t : Vec Ideal S128x512 .f32) (ix2 e k) = (m ((c : Thread nD τ).loc main_arg1) : S128x512.Idx → Elt Ideal .f32) (ix2 e k) := by
  obtain ⟨-, -, e2, e3, -⟩ := idx_facts t
  unfold iblk
  rw [View.read_apply]
  show V m c main_arg1 _ = m (c.tc.loc main_arg1) _
  unfold V
  congr 1
  funext a
  apply Fin.ext
  match a with
  | ⟨0, _⟩ => show win0_1.index t 0 * 128 + 1 * e.val = e.val; rw [e2]; omega
  | ⟨1, _⟩ => show win0_1.index t 1 * 512 + 1 * k.val = k.val; rw [e3]; omega

/-- The centres' window holds the whole array at every point. -/
theorem iblk2_apply (c : Dev nD) (t : Fin cfg0.N) (j : Fin 64) (e : Fin 128) :
    (iblk m c 2 t : Vec Ideal S64x128 .f32) (ix2 j e) = (m ((c : Thread nD τ).loc main_arg2) : S64x128.Idx → Elt Ideal .f32) (ix2 j e) := by
  obtain ⟨-, -, -, -, e4, e5, -⟩ := idx_facts t
  unfold iblk
  rw [View.read_apply]
  show V m c main_arg2 _ = m (c.tc.loc main_arg2) _
  unfold V
  congr 1
  funext a
  apply Fin.ext
  match a with
  | ⟨0, _⟩ => show win0_2.index t 0 * 64 + 1 * j.val = j.val; rw [e4]; omega
  | ⟨1, _⟩ => show win0_2.index t 1 * 128 + 1 * e.val = e.val; rw [e5]; omega

/-- The result as one function of the launch contents of the three arguments. -/
abbrev result (c : Dev nD) : Buf (Elt Ideal) ((c : Thread nD τ).loc main_v0) :=
  G (m ((c : Thread nD τ).loc main_arg0)) (m ((c : Thread nD τ).loc main_arg1)) (m ((c : Thread nD τ).loc main_arg2))

/-- What point `t` writes back is block `t` of `result`. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero hz1]
  simp only [View.ld_unit_zero (S := S1024x512) hz2, View.ld_unit_zero (S := S128x512) hz2, View.ld_unit_zero (S := S64x128) hz2]
  obtain ⟨-, -, -, -, -, -, e6⟩ := idx_facts t
  funext j
  show k0_pay1 (F := Ideal) (iblk m c 0 t) (iblk m c 1 t) (iblk m c 2 t) ((cfg0.win 3).xinj (grid0.coords t) j)
    = result m c (((cfg0.win 3).blk t).view.emb j)
  refine (pay_row _ _ _ _).trans ?_
  show minFirst _ _ _ _ _ = minFirst _ _ _ _ _
  have hj : (j 0).val < 1024 := (j 0).isLt
  have ht : t.val < 16 := lt_of_lt_of_eq t.isLt N_0
  have h0 : ∀ k : Fin 512, (iblk m c 0 t : Vec Ideal S1024x512 .f32) (ix2 ((cfg0.win 3).xinj (grid0.coords t) j 0) k)
      = (m ((c : Thread nD τ).loc main_arg0) : S16384x512.Idx → Elt Ideal .f32) (ix2 ((((cfg0.win 3).blk t).view.emb j) 0) k) := fun k =>
    iblk0_apply m c t _ k _ (by
      show win0_3.index t 0 * 1024 + 1 * (j 0).val = t.val * 1024 + (j 0).val
      rw [e6]; omega)
  congr 1
  · exact funext h0
  · exact funext fun e => funext fun k => iblk1_apply m c t e k
  · exact funext fun j' => funext fun e => iblk2_apply m c t j' e

/-- An entry of the result is in point `t`'s block iff it lies in that block's range of 1024 entries. -/
theorem mem_blk (t : Fin cfg0.N) (i : S16384.Idx) :
    i ∈ ((cfg0.win 3).blk t).view.set ↔ ∀ a : Fin 1, win0_3.index t a * S1024.size a ≤ (i a).val ∧ (i a).val < win0_3.index t a * S1024.size a + S1024.size a := by
  show i ∈ ((View.whole main_v0).slice (win0_3.rect t)).set ↔ _
  rw [View.set_slice_whole, Rect.mem_set_unit]
  exact Iff.rfl

/-- Every entry of the result lies in some point's block: entry `i` in block `i / 1024`. -/
theorem cover (i : S16384.Idx) : ∃ t : Fin cfg0.N, (cfg0.win 3).flush t = true ∧ i ∈ ((cfg0.win 3).blk t).view.set := by
  have hi : (i 0).val < 16384 := (i 0).isLt
  obtain ⟨t, ht⟩ := idx_onto ⟨(i 0).val / 1024, by omega⟩
  have q : win0_3.index t (0 : Fin 1) = (i 0).val / 1024 := ht
  refine ⟨t, flush0_3 t, ?_⟩
  rw [mem_blk]
  intro a
  match a with
  | ⟨0, _⟩ => show win0_3.index t (0 : Fin 1) * 1024 ≤ (i 0).val ∧ (i 0).val < win0_3.index t (0 : Fin 1) * 1024 + 1024; omega

/-- So the result array after the run is `result`. -/
theorem final (c : Dev nD) : (dats m 0 c).arrAt 3 cfg0.N = result m c :=
  (dats m 0 c).arrAt_eq_of_cover 3 (result m c) (fun t _ => flushed_eq m c t) cover

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Cert.KernelIdeal.Value.run_blocks m ρ)

end Cert.KerDist

end
-- ==== Proof.RefValue.lean ====
/-
  The reference's result, read index by index: entry `i` of its last stage is the nearest-centre distance of row `i`
  with the minimum over the centres taken LAST (`Cert.Dist.minLast`), hence the one function `Cert.Dist.G` of the three
  argument arrays.  Each stage is read at an index through its generated read lemma; the transposes only swap the two
  coordinates, the broadcasts only forget one, and each host sum starts from the zero word.
-/
import proofs.«111382_g25297357373548_cont_8to1_1309_3_alg».proof.Proof.Gen.ReferenceIdeal.Read
import proofs.«111382_g25297357373548_cont_8to1_1309_3_alg».proof.Proof.Spec
import Idealize.ShloMosaic.PureOps.Reduce

noncomputable section

namespace Cert.RefDist

open Idealize.ShloMosaic Idealize.ShloMosaic.ValueIdx Cert.ReferenceIdeal Cert.ReferenceIdeal.Gen Cert.ReferenceIdeal.Read Cert.Dist

variable (x0 : (⟨S16384x512, .f32⟩ : BufTy).Contents (Elt Ideal)) (x1 : (⟨S128x512, .f32⟩ : BufTy).Contents (Elt Ideal))
  (x2 : (⟨S64x128, .f32⟩ : BufTy).Contents (Elt Ideal))

/-- Row `i` of the data. -/
abbrev row (i : Fin 16384) : Fin 512 → EReal := fun k => x0 (ix2 i k)
/-- The projection directions, by coordinates. -/
abbrev dirs : Fin 128 → Fin 512 → EReal := fun e k => x1 (ix2 e k)
/-- The centres, by coordinates. -/
abbrev cens : Fin 64 → Fin 128 → EReal := fun j e => x2 (ix2 j e)

/-- The first matrix product at (i, e): the inner product of row `i` with direction `e` (the transposed operand read
    back at swapped coordinates). -/
theorem enc_eq (i : Fin 16384) (e : Fin 128) :
    val_main_v1 (F := Ideal) x0 x1 (ix2 i e) = enc (row x0 i) (dirs x1) e := by
  rw [val_main_v1_apply]
  unfold enc
  refine Finset.sum_congr rfl fun k _ => ?_
  rw [val_main_v0_apply]
  have h1 : lidx_main_v1 (ix2 i e) k = ix2 i k := funext fun a => Fin.ext (by match a with | ⟨0, _⟩ => rfl | ⟨1, _⟩ => rfl)
  have h2 : idx_main_v0 (ridx_main_v1 (ix2 i e) k) = ix2 e k := funext fun a => Fin.ext (by match a with | ⟨0, _⟩ => rfl | ⟨1, _⟩ => rfl)
  rw [h1, h2]

/-- The row sum of the squared projection at `i`: the squared length of the projected row. -/
theorem sq_eq (i : Fin 16384) : val_main_v3 (F := Ideal) x0 x1 (ix1 i) = sqLen (row x0 i) (dirs x1) := by
  rw [val_main_v3_apply]
  unfold sqLen
  show Ideal.ofBits .f32 0x00000000#32 + _ = _
  rw [Ideal.ofBits_zero_f32, zero_add]
  refine Finset.sum_congr rfl fun e _ => ?_
  have h : idx_main_v3 (ix1 i) e = ix2 i e := funext fun a => Fin.ext (by match a with | ⟨0, _⟩ => rfl | ⟨1, _⟩ => rfl)
  rw [h, val_main_v2_apply, enc_eq]
  rfl

/-- The row sum of the squared centres at `j`. -/
theorem csq_eq (j : Fin 64) : val_main_v6 (F := Ideal) x2 (ix1 j) = cenSq (cens x2) j := by
  rw [val_main_v6_apply]
  unfold cenSq
  show Ideal.ofBits .f32 0x00000000#32 + _ = _
  rw [Ideal.ofBits_zero_f32, zero_add]
  refine Finset.sum_congr rfl fun e _ => ?_
  have h : idx_main_v6 (ix1 j) e = ix2 j e := funext fun a => Fin.ext (by match a with | ⟨0, _⟩ => rfl | ⟨1, _⟩ => rfl)
  rw [h, val_main_v5_apply]
  rfl

/-- The second matrix product at (i, j): the inner product of the projected row `i` with centre `j`. -/
theorem cross_eq (i : Fin 16384) (j : Fin 64) :
    val_main_v12 (F := Ideal) x0 x1 x2 (ix2 i j) = cross (row x0 i) (dirs x1) (cens x2) j := by
  rw [val_main_v12_apply]
  unfold cross
  refine Finset.sum_congr rfl fun e _ => ?_
  rw [val_main_v11_apply]
  have h1 : lidx_main_v12 (ix2 i j) e = ix2 i e := funext fun a => Fin.ext (by match a with | ⟨0, _⟩ => rfl | ⟨1, _⟩ => rfl)
  have h2 : idx_main_v11 (ridx_main_v12 (ix2 i j) e) = ix2 j e := funext fun a => Fin.ext (by match a with | ⟨0, _⟩ => rfl | ⟨1, _⟩ => rfl)
  rw [h1, h2, enc_eq]

/-- The distance of row `i` to centre `j`, as the reference forms it: √(max((|u|² + |c_j|²) - 2⟨u, c_j⟩, 0)). -/
theorem dist_eq (i : Fin 16384) (j : Fin 64) :
    val_main_v18 (F := Ideal) x0 x1 x2 (ix2 i j)
      = Ideal.sqrt (max ((sqLen (row x0 i) (dirs x1) + cenSq (cens x2) j)
          - Ideal.ofBits .f32 0x40000000#32 * cross (row x0 i) (dirs x1) (cens x2) j) (Ideal.ofBits .f32 0x00000000#32)) := by
  rw [val_main_v18_apply, val_main_v17_apply, val_main_v15_apply, val_main_v10_apply, val_main_v14_apply, val_main_v16_apply,
    val_main_v13_apply, val_main_v8_apply, val_main_v4_apply, val_main_v9_apply, val_main_v7_apply]
  have h1 : idx_main_v4 (idx_main_v8 (ix2 i j)) = ix1 i := funext fun a => Fin.ext (by match a with | ⟨0, _⟩ => rfl)
  have h2 : idx_main_v7 (idx_main_v9 (ix2 i j)) = ix1 j := funext fun a => Fin.ext (by match a with | ⟨0, _⟩ => rfl)
  rw [h1, h2, sq_eq, csq_eq, cross_eq]
  rfl

/-- The fact that names the coordinate the minimum runs over. -/
theorem hred : S16384x64.Reduces [1] S16384 := by decide

/-- The reference's last stage IS `G` of the argument arrays: its minimum over the centres, from the +∞ word, is taken
    last, and the two orders agree (`minFirst_eq_minLast`). -/
theorem ref_eq : val_main_v19 (F := Ideal) x0 x1 x2 = G x0 x1 x2 := by
  funext i
  obtain ⟨r, rfl⟩ : ∃ r : Fin 16384, i = ix1 r := ⟨i 0, eq_ix1 i⟩
  unfold val_main_v19
  rw [Host.reduce_eq_fold_single FloatOps.minimumf _ _ reducesTo_S16384x64_S16384_d1 hred h_S_]
  unfold G
  rw [minFirst_eq_minLast]
  unfold minLast
  show Finset.fold min (Ideal.ofBits .f32 0x7F800000#32) _ _ = _
  rw [top_lit]
  refine congrArg (fun g => Finset.fold min ⊤ g Finset.univ) (funext fun (j : Fin 64) => ?_)
  show val_main_v18 (F := Ideal) x0 x1 x2 (hred.lift (ix1 r) j) = _
  have hl : hred.lift (ix1 r) j = ix2 r j := funext fun a => Fin.ext (by match a with | ⟨0, _⟩ => rfl | ⟨1, _⟩ => rfl)
  rw [hl, dist_eq]

end Cert.RefDist

end
-- ==== Proof.lean ====
/-
  Nearest-centre distance after a linear projection: the kernel against its reference, over the extended reals.

  Both programs project each of the 16384 data rows onto 128 directions, and measure the projected row `u` against 64
  centres through |u - c_j|² = |u|² + |c_j|² - 2⟨u, c_j⟩.  The kernel, block of 1024 rows by block, takes the minimum
  over the centres of |c_j|² - 2⟨u, c_j⟩ first and then adds |u|², clamps at zero and takes the square root; the
  reference forms √(max(|u|² + |c_j|² - 2⟨u, c_j⟩, 0)) for every centre and takes the minimum last.  The two agree on
  every extended real input because a ↦ √(max(|u|² + a, 0)) is monotone and so commutes with a finite non-empty minimum
  (`Cert.Dist.minFirst_eq_minLast`); the matrix products and the sums are the same sums on both sides.  The frames
  are the generated ones; no rewrite separates the kernel from its idealization.
-/
import proofs.«111382_g25297357373548_cont_8to1_1309_3_alg».proof.Defs
import proofs.«111382_g25297357373548_cont_8to1_1309_3_alg».proof.Proof.Gen.Kernel
import proofs.«111382_g25297357373548_cont_8to1_1309_3_alg».proof.Proof.Gen.Kernel.Skeleton
import proofs.«111382_g25297357373548_cont_8to1_1309_3_alg».proof.Proof.Gen.Kernel.Launch
import proofs.«111382_g25297357373548_cont_8to1_1309_3_alg».proof.Proof.Gen.Kernel.Points
import proofs.«111382_g25297357373548_cont_8to1_1309_3_alg».proof.Proof.Gen.Kernel.Frame
import proofs.«111382_g25297357373548_cont_8to1_1309_3_alg».proof.Proof.Gen.KernelIdeal
import proofs.«111382_g25297357373548_cont_8to1_1309_3_alg».proof.Proof.Gen.KernelIdeal.Skeleton
import proofs.«111382_g25297357373548_cont_8to1_1309_3_alg».proof.Proof.Gen.KernelIdeal.Launch
import proofs.«111382_g25297357373548_cont_8to1_1309_3_alg».proof.Proof.Gen.KernelIdeal.Points
import proofs.«111382_g25297357373548_cont_8to1_1309_3_alg».proof.Proof.Gen.KernelIdeal.Frame
import proofs.«111382_g25297357373548_cont_8to1_1309_3_alg».proof.Proof.Gen.ReferenceIdeal
import proofs.«111382_g25297357373548_cont_8to1_1309_3_alg».proof.Proof.Gen.Pre_finite_inputs
import proofs.«111382_g25297357373548_cont_8to1_1309_3_alg».proof.Proof.Gen.KernelIdeal.Value
import proofs.«111382_g25297357373548_cont_8to1_1309_3_alg».proof.Proof.Gen.ReferenceIdeal.Run
import proofs.«111382_g25297357373548_cont_8to1_1309_3_alg».proof.Proof.Gen.ReferenceIdeal.Read
import proofs.«111382_g25297357373548_cont_8to1_1309_3_alg».proof.Proof.KerValue
import proofs.«111382_g25297357373548_cont_8to1_1309_3_alg».proof.Proof.RefValue
import Idealize.ShloMosaic.Adequacy
import Idealize.ShloMosaic.Init

noncomputable section

namespace Cert.Proof

open Idealize.ShloMosaic Idealize.SL.Sem

/-- The reference runs, and leaves its arguments as they were: its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- From memories that agree on the three arguments both programs end with the result array at the one function
    `Cert.Dist.G` of them: the kernel block by block with the minimum first, the reference with the minimum last. -/
theorem algebraic : Cert.algebraic_KernelIdeal_ReferenceIdeal := by
  intro m ρ m' ρ' _ hagree
  refine ⟨fun c => Cert.KerDist.result m c, Cert.KerDist.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.RefDist.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
